-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x128 : Shape := ⟨3, ![4096, 32, 128]⟩
abbrev S4096x32x32 : Shape := ⟨3, ![4096, 32, 32]⟩
abbrev S128x16 : Shape := ⟨2, ![128, 16]⟩
abbrev S16 : Shape := ⟨1, ![16]⟩
abbrev S_ : Shape := ⟨0, ![]⟩
abbrev S32x32 : Shape := ⟨2, ![32, 32]⟩
abbrev S1x32x32 : Shape := ⟨3, ![1, 32, 32]⟩
abbrev S4096x32 : Shape := ⟨2, ![4096, 32]⟩

class Facts : Prop where
  bcast_S_S4096x32x128 : S_.BroadcastsInDim S4096x32x128 (![] : Fin 0 → Fin S4096x32x128.rank)
  reducesTo_S4096x32x128_S_d0_1_2 : S4096x32x128.ReducesTo [0, 1, 2] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S4096x32x32_0_1_2 : S1x32x32.BroadcastsInDim S4096x32x32 (![0, 1, 2] : Fin 3 → Fin S4096x32x32.rank)
  reducesTo_S4096x32x32_S4096x32_d2 : S4096x32x32.ReducesTo [2] S4096x32
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_v13 : IVec S_ 1) (main_v14 : FVec F S4096x32x32 .f32) (main_v15 : IVec S32x32 32) (main_v16 : IVec S32x32 32) (main_c_4 : IVec S_ 32) : IVec S_ 1 :=
  let main_v17 : IVec S32x32 32 := broadcastInDim S32x32 ![] bcast_S_S32x32 main_c_4
  let main_v18 : IVec S32x32 32 := addi main_v15 main_v17
  let main_v19 : IVec S32x32 1 := cmpi .eq main_v18 main_v16
  let main_v20 : FVec F S32x32 .f32 := uitofp .f32 main_v19
  let main_v21 : FVec F S1x32x32 .f32 := broadcastInDim S1x32x32 ![1, 2] bcast_S32x32_S1x32x32_1_2 main_v20
  let main_v22 : FVec F S4096x32x32 .f32 := broadcastInDim S4096x32x32 ![0, 1, 2] bcast_S1x32x32_S4096x32x32_0_1_2 main_v21
  let main_v23 : FVec F S4096x32x32 .f32 := addf main_v14 main_v22
  let main_cst_5 : FVec F S_ .f32 := constant S_ .f32 0x00000000#32
  let main_v24 : FVec F S4096x32 .f32 := (fun x v => Host.reduceAdd x v reducesTo_S4096x32x32_S4096x32_d2 h_S_) main_v23 main_cst_5
  let main_cst_6 : FVec F S_ .f32 := constant S_ .f32 0x00000000#32
  let main_v25 : FVec F S4096x32 .f32 := broadcastInDim S4096x32 ![] bcast_S_S4096x32 main_cst_6
  let main_v26 : IVec S4096x32 1 := cmpf .ogt main_v24 main_v25
  let main_c_7 : IVec S_ 1 := constantI S_ 1 1#1
  let main_v27 : IVec S_ 1 := (fun x v => Host.reduce IntOp.andi x v reducesTo_S4096x32_S_d0_1 h_S_) main_v26 main_c_7
  let main_v28 : IVec S_ 1 := andi main_v13 main_v27
  main_v28

def fn {F : FTy → Type} [FloatOps F] (main_arg0 : FVec F S4096x32x128 .f32) (main_arg1 : IVec S4096x32x32 32) (main_arg2 : FVec F S128x16 .f32) (main_arg3 : FVec F S16 .f32) : IVec S_ 1 :=
  let main_v0 : FVec F S4096x32x128 .f32 := Host.absf main_arg0
  let main_cst : FVec F S_ .f32 := constant S_ .f32 0x7F800000#32
  let main_v1 : FVec F S4096x32x128 .f32 := broadcastInDim S4096x32x128 ![] bcast_S_S4096x32x128 main_cst
  let main_v2 : IVec S4096x32x128 1 := cmpf .olt main_v0 main_v1
  let main_c : IVec S_ 1 := constantI S_ 1 1#1
  let main_v3 : IVec S_ 1 := (fun x v => Host.reduce IntOp.andi x v reducesTo_S4096x32x128_S_d0_1_2 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S4096x32x32 .f32 := sitofp .f32 main_arg1
  let main_v15 : IVec S32x32 32 := iotaInDim S32x32 32 0
  let main_v16 : IVec S32x32 32 := iotaInDim S32x32 32 1
  let main_c_4 : IVec S_ 32 := constantI S_ 32 0#32
  fn_part1 (F := F) main_v13 main_v14 main_v15 main_v16 main_c_4
-- ==== Kernel.lean ====
abbrev S4096x32x128 : Shape := ⟨3, ![4096, 32, 128]⟩
abbrev S4096x32x32 : Shape := ⟨3, ![4096, 32, 32]⟩
abbrev S128x16 : Shape := ⟨2, ![128, 16]⟩
abbrev S16 : Shape := ⟨1, ![16]⟩
abbrev S4096x1024 : Shape := ⟨2, ![4096, 1024]⟩
abbrev S1x16 : Shape := ⟨2, ![1, 16]⟩
abbrev S4096x512 : Shape := ⟨2, ![4096, 512]⟩
abbrev S256x32x128 : Shape := ⟨3, ![256, 32, 128]⟩
abbrev S256x1024 : Shape := ⟨2, ![256, 1024]⟩
abbrev S256x512 : Shape := ⟨2, ![256, 512]⟩
abbrev S8192x128 : Shape := ⟨2, ![8192, 128]⟩
abbrev S8192x16 : Shape := ⟨2, ![8192, 16]⟩
abbrev S256x32x32 : Shape := ⟨3, ![256, 32, 32]⟩
abbrev S256x32x16 : Shape := ⟨3, ![256, 32, 16]⟩
abbrev S1x1x16 : Shape := ⟨3, ![1, 1, 16]⟩

abbrev nBuf : Space → Nat
  | .hbm => 7
  | .vmem => 8
  | .smem => 0
  | _ => 0

abbrev bufTy : (tb : Table) → Fin (tcTables nBuf tb) → BufTy
  | .hbm, ⟨0, _⟩ => ⟨S4096x32x128, .f32⟩
  | .hbm, ⟨1, _⟩ => ⟨S4096x32x32, .i32⟩
  | .hbm, ⟨2, _⟩ => ⟨S128x16, .f32⟩
  | .hbm, ⟨3, _⟩ => ⟨S16, .f32⟩
  | .hbm, ⟨4, _⟩ => ⟨S4096x1024, .i32⟩
  | .hbm, ⟨5, _⟩ => ⟨S1x16, .f32⟩
  | .hbm, ⟨6, _⟩ => ⟨S4096x512, .f32⟩
  | .local _ .vmem, ⟨0, _⟩ => ⟨S256x32x128, .f32⟩
  | .local _ .vmem, ⟨1, _⟩ => ⟨S256x32x128, .f32⟩
  | .local _ .vmem, ⟨2, _⟩ => ⟨S256x1024, .i32⟩
  | .local _ .vmem, ⟨3, _⟩ => ⟨S256x1024, .i32⟩
  | .local _ .vmem, ⟨4, _⟩ => ⟨S128x16, .f32⟩
  | .local _ .vmem, ⟨5, _⟩ => ⟨S1x16, .f32⟩
  | .local _ .vmem, ⟨6, _⟩ => ⟨S256x512, .f32⟩
  | .local _ .vmem, ⟨7, _⟩ => ⟨S256x512, .f32⟩
  | _, _ => ⟨S4096x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096x32x32_S4096x1024 : S4096x32x32.ShapeCasts S4096x1024
  shapeCasts_S16_S1x16 : S16.ShapeCasts S1x16
  inb_S256x32x128_S256x32x128_0_0_0 : ∀ a, (![0, 0, 0] : Fin 3 → Nat) a + S256x32x128.size a ≤ S256x32x128.size a
  h_S256x32x128 : 0 < S256x32x128.numel
  shapeCasts_S256x32x128_S8192x128 : S256x32x128.ShapeCasts S8192x128
  inb_S128x16_S128x16_0_0 : ∀ a, (![0, 0] : Fin 2 → Nat) a + S128x16.size a ≤ S128x16.size a
  h_S128x16 : 0 < S128x16.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S256x1024_S256x32x32 : S256x1024.ShapeCasts S256x32x32
  shapeCasts_S8192x16_S256x32x16 : S8192x16.ShapeCasts S256x32x16
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S16 : S1x16.ShapeCasts S16
  shapeCasts_S16_S1x1x16 : S16.ShapeCasts S1x1x16
  broadcasts_S1x1x16_S256x32x16 : S1x1x16.Broadcasts S256x32x16
  shapeCasts_S256x32x16_S256x512 : S256x32x16.ShapeCasts S256x512
  inb_S256x512_S256x512_0_0 : ∀ a, (![0, 0] : Fin 2 → Nat) a + S256x512.size a ≤ S256x512.size a
  h_S256x512 : 0 < S256x512.numel
  dot_S8192x128_S128x16_S8192x16_1_0_0_1_n_n_wf : DotDims.WF S8192x128 S128x16 S8192x16 [1] [0] [0] [1] [] []
  dot_S256x32x32_S256x32x16_S256x32x16_2_1_1_2_0_0_wf : DotDims.WF S256x32x32 S256x32x16 S256x32x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x128.size a ≤ S4096x32x128.size a
  hwx0_0 : ∀ i : grid0.Coords, EltTy.bits .f32 = 32 ∨ (Rect.block (s := S4096x32x128) S256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .i32 = 32 ∨ (Rect.block (s := S4096x1024) S256x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S4096x512.size a
  hwx0_4 : ∀ i : grid0.Coords, EltTy.bits .f32 = 32 ∨ (Rect.block (s := S4096x512) S256x512.size (cc0_transform_4 i) (hinb0_4 i)).WholeWords (EltTy.packing .f32)

variable [Facts₀]

def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S256x32x32_S256x32x16_S256x32x16_2_1_1_2_0_0 : DotDims S256x32x32 S256x32x16 S256x32x16 where
  lhsContracting := [2]
  rhsContracting := [1]
  lhsNonContracting := [1]
  rhsNonContracting := [2]
  lhsBatch := [0]
  rhsBatch := [0]
  wf := dot_S256x32x32_S256x32x16_S256x32x16_2_1_1_2_0_0_wf

abbrev win0_0 : Pipeline.Window sig grid0 :=
  Pipeline.Window.ofSpec (Memref.whole main_arg0) S256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x32x128 : Shape := ⟨3, ![4096, 32, 128]⟩
abbrev S4096x32x32 : Shape := ⟨3, ![4096, 32, 32]⟩
abbrev S128x16 : Shape := ⟨2, ![128, 16]⟩
abbrev S16 : Shape := ⟨1, ![16]⟩
abbrev S32x32 : Shape := ⟨2, ![32, 32]⟩
abbrev S_ : Shape := ⟨0, ![]⟩
abbrev S1x32x32 : Shape := ⟨3, ![1, 32, 32]⟩
abbrev S4096x32 : Shape := ⟨2, ![4096, 32]⟩
abbrev S4096x32x1 : Shape := ⟨3, ![4096, 32, 1]⟩
abbrev S4096x1x32 : Shape := ⟨3, ![4096, 1, 32]⟩
abbrev S4096x32x16 : Shape := ⟨3, ![4096, 32, 16]⟩
abbrev S1x1x16 : Shape := ⟨3, ![1, 1, 16]⟩
abbrev S4096x512 : Shape := ⟨2, ![4096, 512]⟩

abbrev nBuf : Space → Nat
  | .hbm => 30
  | .vmem => 0
  | .smem => 0
  | _ => 0

abbrev bufTy : (tb : Table) → Fin (tcTables nBuf tb) → BufTy
  | .hbm, ⟨0, _⟩ => ⟨S4096x32x128, .f32⟩
  | .hbm, ⟨1, _⟩ => ⟨S4096x32x32, .i32⟩
  | .hbm, ⟨2, _⟩ => ⟨S128x16, .f32⟩
  | .hbm, ⟨3, _⟩ => ⟨S16, .f32⟩
  | .hbm, ⟨4, _⟩ => ⟨S4096x32x32, .f32⟩
  | .hbm, ⟨5, _⟩ => ⟨S32x32, .i32⟩
  | .hbm, ⟨6, _⟩ => ⟨S32x32, .i32⟩
  | .hbm, ⟨7, _⟩ => ⟨S_, .i32⟩
  | .hbm, ⟨8, _⟩ => ⟨S32x32, .i32⟩
  | .hbm, ⟨9, _⟩ => ⟨S32x32, .i32⟩
  | .hbm, ⟨10, _⟩ => ⟨S32x32, .i1⟩
  | .hbm, ⟨11, _⟩ => ⟨S32x32, .f32⟩
  | .hbm, ⟨12, _⟩ => ⟨S1x32x32, .f32⟩
  | .hbm, ⟨13, _⟩ => ⟨S4096x32x32, .f32⟩
  | .hbm, ⟨14, _⟩ => ⟨S4096x32x32, .f32⟩
  | .hbm, ⟨15, _⟩ => ⟨S_, .f32⟩
  | .hbm, ⟨16, _⟩ => ⟨S4096x32, .f32⟩
  | .hbm, ⟨17, _⟩ => ⟨S4096x32, .f32⟩
  | .hbm, ⟨18, _⟩ => ⟨S4096x32x1, .f32⟩
  | .hbm, ⟨19, _⟩ => ⟨S4096x32x32, .f32⟩
  | .hbm, ⟨20, _⟩ => ⟨S4096x32x32, .f32⟩
  | .hbm, ⟨21, _⟩ => ⟨S4096x1x32, .f32⟩
  | .hbm, ⟨22, _⟩ => ⟨S4096x32x32, .f32⟩
  | .hbm, ⟨23, _⟩ => ⟨S4096x32x32, .f32⟩
  | .hbm, ⟨24, _⟩ => ⟨S4096x32x16, .f32⟩
  | .hbm, ⟨25, _⟩ => ⟨S4096x32x16, .f32⟩
  | .hbm, ⟨26, _⟩ => ⟨S1x1x16, .f32⟩
  | .hbm, ⟨27, _⟩ => ⟨S4096x32x16, .f32⟩
  | .hbm, ⟨28, _⟩ => ⟨S4096x32x16, .f32⟩
  | .hbm, ⟨29, _⟩ => ⟨S4096x512, .f32⟩
  | _, _ => ⟨S4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S4096x32x32_0_1_2 : S1x32x32.BroadcastsInDim S4096x32x32 (![0, 1, 2] : Fin 3 → Fin S4096x32x32.rank)
  reducesTo_S4096x32x32_S4096x32_d2 : S4096x32x32.ReducesTo [2] S4096x32
  h_S_ : 0 < S_.numel
  bcast_S4096x32_S4096x32x1_0_1 : S4096x32.BroadcastsInDim S4096x32x1 (![0, 1] : Fin 2 → Fin S4096x32x1.rank)
  bcast_S4096x32x1_S4096x32x32_0_1_2 : S4096x32x1.BroadcastsInDim S4096x32x32 (![0, 1, 2] : Fin 3 → Fin S4096x32x32.rank)
  bcast_S4096x32_S4096x1x32_0_2 : S4096x32.BroadcastsInDim S4096x1x32 (![0, 2] : Fin 2 → Fin S4096x1x32.rank)
  bcast_S4096x1x32_S4096x32x32_0_1_2 : S4096x1x32.BroadcastsInDim S4096x32x32 (![0, 1, 2] : Fin 3 → Fin S4096x32x32.rank)
  bcast_S16_S1x1x16_2 : S16.BroadcastsInDim S1x1x16 (![2] : Fin 1 → Fin S1x1x16.rank)
  bcast_S1x1x16_S4096x32x16_0_1_2 : S1x1x16.BroadcastsInDim S4096x32x16 (![0, 1, 2] : Fin 3 → Fin S4096x32x16.rank)
  shapeCasts_S4096x32x16_S4096x512 : S4096x32x16.ShapeCasts S4096x512
  dot_S4096x32x128_S128x16_S4096x32x16_2_0_01_1_n_n_wf : DotDims.WF S4096x32x128 S128x16 S4096x32x16 [2] [0] [0, 1] [1] [] []
  dot_S4096x32x32_S4096x32x16_S4096x32x16_2_1_1_2_0_0_wf : DotDims.WF S4096x32x32 S4096x32x16 S4096x32x16 [2] [1] [1] [2] [0] [0]

variable [Facts₀]

def dot_S4096x32x128_S128x16_S4096x32x16_2_0_01_1_n_n : DotDims S4096x32x128 S128x16 S4096x32x16 where
  lhsContracting := [2]
  rhsContracting := [0]
  lhsNonContracting := [0, 1]
  rhsNonContracting := [1]
  lhsBatch := []
  rhsBatch := []
  wf := dot_S4096x32x128_S128x16_S4096x32x16_2_0_01_1_n_n_wf
def dot_S4096x32x32_S4096x32x16_S4096x32x16_2_1_1_2_0_0 : DotDims S4096x32x32 S4096x32x16 S4096x32x16 where
  lhsContracting := [2]
  rhsContracting := [1]
  lhsNonContracting := [1]
  rhsNonContracting := [2]
  lhsBatch := [0]
  rhsBatch := [0]
  wf := dot_S4096x32x32_S4096x32x16_S4096x32x16_2_1_1_2_0_0_wf

class Facts : Prop extends Facts₀ where

variable [Facts]
-- ==== Proof.GcnAlgebra.lean ====
/-
  The per-sample mathematics of the graph-convolution layer, with no program in sight.

  For one sample with node features `X : 32 × 128`, adjacency `A : 32 × 32`, weights `W : 128 × 16` and bias `b : 16`,
  write `Y = X W`, `D i = 1 + ∑ k, A i k` (the degree of node `i` in `A + I`) and `s i = (√(D i))⁻¹`.  The layer is
      out i o = ∑ m, (A + I) i m · s i · s m · Y m o + b o.
  Two arrangements of this sum are stated here over the extended reals, each in the order its program performs it:
  `gcnFolded` scales `Y` by `s` first, aggregates with `A`, adds the self loop as one more term and scales by `s` again;
  `gcnNormalized` builds the normalized matrix `(A + I) i m · s i · s m` entrywise and multiplies it with `Y`.
  They agree (`gcnFolded_eq_gcnNormalized`) whenever every entry is a real number and every degree `D i` is positive:
  then each `s i` is a real number too, and the identity is distributivity of the product over the finite sum in ℝ.
  On the extended reals distributivity fails at the infinities, which is why finiteness and `D i > 0` are hypotheses.
-/
import Idealize.ShloMosaic.PureOps.Ideal
import Idealize.ShloMosaic.PureOps.Ideal.Laws

noncomputable section

namespace Cert.Gcn

open Idealize.ShloMosaic

/-! ## The two literals that denote one -/

/-- The f32 word of `1.0` denotes the real number one. -/
theorem ofBits_one_f32 : Ideal.ofBits .f32 0x3F800000#32 = 1 := by
  simp [Ideal.ofBits, Ideal.ieee, -EReal.coe_mul]; norm_num

/-- The bf16 word of `1.0` denotes the real number one. -/
theorem ofBits_one_bf16 : Ideal.ofBits .bf16 0x3F80#16 = 1 := by
  simp [Ideal.ofBits, Ideal.ieee, -EReal.coe_mul]; norm_num

/-! ## Sums of real numbers inside the extended reals -/

/-- A finite sum of coerced reals is the coercion of the real sum. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The reciprocal square root of a positive real is the real `(√r)⁻¹`. -/
theorem rsqrt_of_pos {r : ℝ} (h : 0 < r) : Ideal.rsqrt (r : EReal) = (((Real.sqrt r)⁻¹ : ℝ) : EReal) := by
  rw [Ideal.rsqrt_coe, if_neg (not_lt.mpr h.le), if_neg (ne_of_gt h)]

/-! ## The two arrangements -/

/-- The product `Y = X W` at node `m` and output feature `o`. -/
def proj (X : Fin 32 → Fin 128 → EReal) (W : Fin 128 → Fin 16 → EReal) (m : Fin 32) (o : Fin 16) : EReal :=
  ∑ d : Fin 128, X m d * W d o

/-- The normalizer `s i` as the folded arrangement computes it: the degree is the row of `A` summed against a column of
    ones `u`, plus the self loop `v`. -/
def scaleFolded (A : Fin 32 → Fin 32 → EReal) (u v : EReal) (i : Fin 32) : EReal :=
  Ideal.rsqrt ((∑ k : Fin 32, A i k * u) + v)

/-- The layer with the self loop folded in as a separate term: `((∑ j, A i j · (Y j o · s j)) + Y i o · s i) · s i + b o`. -/
def gcnFolded (X : Fin 32 → Fin 128 → EReal) (A : Fin 32 → Fin 32 → EReal) (W : Fin 128 → Fin 16 → EReal)
    (b : Fin 16 → EReal) (u v : EReal) (i : Fin 32) (o : Fin 16) : EReal :=
  ((∑ j : Fin 32, A i j * (proj X W j o * scaleFolded A u v j)) + proj X W i o * scaleFolded A u v i)
      * scaleFolded A u v i + b o

/-- The normalizer `s i` as the normalized arrangement computes it: the row sum of `A + E` from the initial value `z`. -/
def scaleNormalized (A E : Fin 32 → Fin 32 → EReal) (z : EReal) (i : Fin 32) : EReal :=
  Ideal.rsqrt (z + ∑ k : Fin 32, (A i k + E i k))

/-- The layer through the normalized matrix: `∑ m, ((A + E) i m · s i · s m) · Y m o + b o`. -/
def gcnNormalized (X : Fin 32 → Fin 128 → EReal) (A E : Fin 32 → Fin 32 → EReal) (W : Fin 128 → Fin 16 → EReal)
    (b : Fin 16 → EReal) (z : EReal) (i : Fin 32) (o : Fin 16) : EReal :=
  (∑ m : Fin 32, ((A i m + E i m) * scaleNormalized A E z i) * scaleNormalized A E z m * proj X W m o) + b o

/-! ## They agree on real entries with positive degrees -/

/-- The identity in ℝ: with `δ` the identity matrix, the self loop's term is the diagonal entry of the sum. -/
theorem real_identity (a : Fin 32 → Fin 32 → ℝ) (y s : Fin 32 → ℝ) (i : Fin 32) (c : ℝ) :
    ((∑ j : Fin 32, a i j * (y j * s j)) + y i * s i) * s i + c
      = (∑ m : Fin 32, ((a i m + (if i = m then 1 else 0)) * s i) * s m * y m) + c := by
  have h : ∀ m : Fin 32, ((a i m + (if i = m then (1 : ℝ) else 0)) * s i) * s m * y m
      = (a i m * (y m * s m)) * s i + (if i = m then y m * s m * s i else 0) := by
    intro m; split_ifs <;> ring
  simp only [h, Finset.sum_add_distrib, Finset.sum_ite_eq, Finset.mem_univ, if_true, ← Finset.sum_mul]
  ring

/-- The degree is the same real number in both arrangements. -/
theorem degree_eq (a : Fin 32 → Fin 32 → ℝ) (i : Fin 32) :
    (∑ k : Fin 32, a i k * 1) + 1 = 0 + ∑ k : Fin 32, (a i k + (if i = k then (1 : ℝ) else 0)) := by
  simp only [mul_one, zero_add, Finset.sum_add_distrib, Finset.sum_ite_eq, Finset.mem_univ, if_true]

/-- THE LAW: on real entries, with the identity matrix for `E`, ones for `u` and `v`, zero for `z`, and every degree positive,
    the folded and the normalized arrangements are one extended real. -/
theorem gcnFolded_eq_gcnNormalized (x : Fin 32 → Fin 128 → ℝ) (a : Fin 32 → Fin 32 → ℝ) (w : Fin 128 → Fin 16 → ℝ)
    (b : Fin 16 → ℝ) (hdeg : ∀ i : Fin 32, 0 < 0 + ∑ k : Fin 32, (a i k + (if i = k then (1 : ℝ) else 0)))
    (i : Fin 32) (o : Fin 16) :
    gcnFolded (fun m d => (x m d : EReal)) (fun m k => (a m k : EReal)) (fun d o => (w d o : EReal)) (fun o => (b o : EReal)) 1 1 i o
      = gcnNormalized (fun m d => (x m d : EReal)) (fun m k => (a m k : EReal))
          (fun m k => (((if m = k then (1 : ℝ) else 0) : ℝ) : EReal)) (fun d o => (w d o : EReal)) (fun o => (b o : EReal)) 0 i o := by
  have hY : ∀ m o, proj (fun m d => (x m d : EReal)) (fun d o => (w d o : EReal)) m o
      = ((∑ d : Fin 128, x m d * w d o : ℝ) : EReal) := by
    intro m o; unfold proj; simp only [← EReal.coe_mul]; exact coe_sum _ _
  have hsF : ∀ m, scaleFolded (fun m k => (a m k : EReal)) 1 1 m
      = (((Real.sqrt (0 + ∑ k : Fin 32, (a m k + (if m = k then (1 : ℝ) else 0))))⁻¹ : ℝ) : EReal) := by
    intro m; unfold scaleFolded
    rw [← EReal.coe_one]; simp only [← EReal.coe_mul]; rw [coe_sum, ← EReal.coe_add, degree_eq]
    exact rsqrt_of_pos (hdeg m)
  have hsN : ∀ m, scaleNormalized (fun m k => (a m k : EReal)) (fun m k => (((if m = k then (1 : ℝ) else 0) : ℝ) : EReal)) 0 m
      = (((Real.sqrt (0 + ∑ k : Fin 32, (a m k + (if m = k then (1 : ℝ) else 0))))⁻¹ : ℝ) : EReal) := by
    intro m; unfold scaleNormalized
    rw [← EReal.coe_zero]; simp only [← EReal.coe_add]; rw [coe_sum, ← EReal.coe_add]
    exact rsqrt_of_pos (hdeg m)
  unfold gcnFolded gcnNormalized
  simp only [hY, hsF, hsN, ← EReal.coe_mul, ← EReal.coe_add, coe_sum]
  exact congrArg _ (real_identity a _ _ i (b o))

end Cert.Gcn

end
-- ==== Proof.GcnLayer.lean ====
/-
  The layer over whole arrays.  Sample `B` of the batch is computed on its own: its node features are rows `(B, ·, ·)` of
  the feature array, its adjacency rows `(B, ·, ·)` of the integer adjacency array read as signed integers, and the result
  row `B` holds the 32 × 16 node embeddings flattened, entry `c` being node `c / 16`, output feature `c % 16`.
  `layerFolded` and `layerNormalized` are the two arrangements of GcnAlgebra at every sample; they are one array
  (`layerFolded_eq_layerNormalized`) when the float arrays hold real numbers and every degree of `A + I` is positive.
-/
import proofs.«157879_g72318659330489_cont_9to1c4b_23_24_alg».proof.Proof.GcnAlgebra
import Idealize.ShloMosaic.Lib.ValueIdx

noncomputable section

namespace Cert.Gcn

open Idealize.ShloMosaic Idealize.ShloMosaic.ValueIdx

/-- Node features of sample `B`. -/
def sampleX (X : (⟨3, ![4096, 32, 128]⟩ : Shape).Idx → EReal) (B : Fin 4096) : Fin 32 → Fin 128 → EReal :=
  fun m d => X (ix3 B m d)

/-- Adjacency of sample `B`, each word read as the signed integer it encodes. -/
def sampleA (A : (⟨3, ![4096, 32, 32]⟩ : Shape).Idx → BitVec 32) (B : Fin 4096) : Fin 32 → Fin 32 → EReal :=
  fun m k => (((A (ix3 B m k)).toInt : ℝ) : EReal)

/-- The weight matrix by row and column. -/
def matW (W : (⟨2, ![128, 16]⟩ : Shape).Idx → EReal) : Fin 128 → Fin 16 → EReal := fun d o => W (ix2 d o)

/-- The bias by output feature. -/
def vecB (b : (⟨1, ![16]⟩ : Shape).Idx → EReal) : Fin 16 → EReal := fun o => b (ix1 o)

/-- The identity matrix: the self loops. -/
def eyeE : Fin 32 → Fin 32 → EReal := fun m k => (((if m = k then (1 : ℝ) else 0) : ℝ) : EReal)

/-- The node of flattened entry `c`. -/
def nodeOf (c : Fin 512) : Fin 32 := ⟨c.val / 16, by have := c.isLt; omega⟩
/-- The output feature of flattened entry `c`. -/
def featOf (c : Fin 512) : Fin 16 := ⟨c.val % 16, by omega⟩

/-- The layer's output array, the self loop folded in as its own term. -/
def layerFolded (X : (⟨3, ![4096, 32, 128]⟩ : Shape).Idx → EReal) (A : (⟨3, ![4096, 32, 32]⟩ : Shape).Idx → BitVec 32)
    (W : (⟨2, ![128, 16]⟩ : Shape).Idx → EReal) (b : (⟨1, ![16]⟩ : Shape).Idx → EReal) :
    (⟨2, ![4096, 512]⟩ : Shape).Idx → EReal :=
  fun k => gcnFolded (sampleX X (k 0)) (sampleA A (k 0)) (matW W) (vecB b) 1 1 (nodeOf (k 1)) (featOf (k 1))

/-- The layer's output array through the normalized adjacency matrix. -/
def layerNormalized (X : (⟨3, ![4096, 32, 128]⟩ : Shape).Idx → EReal) (A : (⟨3, ![4096, 32, 32]⟩ : Shape).Idx → BitVec 32)
    (W : (⟨2, ![128, 16]⟩ : Shape).Idx → EReal) (b : (⟨1, ![16]⟩ : Shape).Idx → EReal) :
    (⟨2, ![4096, 512]⟩ : Shape).Idx → EReal :=
  fun k => gcnNormalized (sampleX X (k 0)) (sampleA A (k 0)) eyeE (matW W) (vecB b) 0 (nodeOf (k 1)) (featOf (k 1))

/-- The degree of node `i` of sample `B` in `A + I`, as the normalized arrangement sums it. -/
def degree (A : (⟨3, ![4096, 32, 32]⟩ : Shape).Idx → BitVec 32) (B : Fin 4096) (i : Fin 32) : EReal :=
  0 + ∑ k : Fin 32, (sampleA A B i k + eyeE i k)

/-- ONE ARRAY: real features, weights and bias, and positive degrees, make the two arrangements equal everywhere. -/
theorem layerFolded_eq_layerNormalized (X : (⟨3, ![4096, 32, 128]⟩ : Shape).Idx → EReal)
    (A : (⟨3, ![4096, 32, 32]⟩ : Shape).Idx → BitVec 32) (W : (⟨2, ![128, 16]⟩ : Shape).Idx → EReal)
    (b : (⟨1, ![16]⟩ : Shape).Idx → EReal)
    (hX : ∀ j, ∃ r : ℝ, X j = (r : EReal)) (hW : ∀ j, ∃ r : ℝ, W j = (r : EReal)) (hb : ∀ j, ∃ r : ℝ, b j = (r : EReal))
    (hdeg : ∀ (B : Fin 4096) (i : Fin 32), 0 < degree A B i) :
    layerFolded X A W b = layerNormalized X A W b := by
  choose xr hxr using hX
  choose wr hwr using hW
  choose br hbr using hb
  funext k
  unfold layerFolded layerNormalized
  have eX : sampleX X (k 0) = fun m d => ((xr (ix3 (k 0) m d) : ℝ) : EReal) := by
    funext m d; exact hxr _
  have eW : matW W = fun d o => ((wr (ix2 d o) : ℝ) : EReal) := by funext d o; exact hwr _
  have eb : vecB b = fun o => ((br (ix1 o) : ℝ) : EReal) := by funext o; exact hbr _
  have eA : sampleA A (k 0) = fun m j => ((((A (ix3 (k 0) m j)).toInt : ℝ)) : EReal) := rfl
  rw [eX, eW, eb, eA]
  refine gcnFolded_eq_gcnNormalized _ (fun m j => ((A (ix3 (k 0) m j)).toInt : ℝ)) _ _ (fun i => ?_) _ _
  have h := hdeg (k 0) i
  unfold degree sampleA eyeE at h
  simp only [← EReal.coe_add, coe_sum] at h
  rw [← EReal.coe_zero, ← EReal.coe_add] at h
  exact EReal.coe_pos.mp h

end Cert.Gcn

end
-- ==== Proof.KernelPayload.lean ====
/-
  What the kernel body stores, entry by entry.

  At a grid point the body holds 256 samples: a feature block `x : 256 × 32 × 128`, the adjacency block with each
  sample's 32 × 32 matrix flattened to a row of 1024 integers, the weights and the bias row.  It multiplies the features
  (all 256 · 32 nodes as rows of one matrix) with the weights, un-flattens the adjacency rows into matrices, obtains each
  node's degree as the adjacency row times a column of ones, and from these the normalizer `s`; it scales `X W` by `s`,
  multiplies with the adjacency sample by sample, adds the scaled `X W` once more for the self loop, scales by `s` again, adds
  the bias, and flattens nodes and features into 512 columns.  Read at block entry (r, c) this is GcnAlgebra's folded
  arrangement on sample `r` of the blocks, at node `c / 16` and feature `c % 16` (`pay_apply`).  The two products are sums over
  the one contracted axis (`matmul_rows_apply`, `matmul_batch_apply`), every re-laying of axes is a change of row-major
  coordinates (`cast_*`), and a change of float format is the identity.
-/
import proofs.«157879_g72318659330489_cont_9to1c4b_23_24_alg».proof.Proof.Gen.KernelIdeal.Skeleton
import proofs.«157879_g72318659330489_cont_9to1c4b_23_24_alg».proof.Proof.GcnLayer
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.TcCoe
open Idealize.ShloMosaic.ValueIdx Cert.Gcn

/-! ## Coordinates -/

/-- Node `i` of sample `r` as a row of the 8192-row matrix of all nodes. -/
def nodeRow (r : Fin 256) (i : Fin 32) : Fin 8192 := ⟨r.val * 32 + i.val, by have := r.isLt; have := i.isLt; omega⟩
/-- Entry (i, j) of a 32 × 32 matrix in its flattened row of 1024. -/
def flat (i j : Fin 32) : Fin 1024 := ⟨i.val * 32 + j.val, by have := i.isLt; have := j.isLt; omega⟩

/-! ## The re-layings of axes -/

theorem cast_rows (v : FVec Ideal S256x32x128 .f32) (r : Fin 256) (i : Fin 32) (d : Fin 128) :
    shapeCast S8192x128 v shapeCasts_S256x32x128_S8192x128 (ix2 (nodeRow r i) d) = v (ix3 r i d) :=
  shapeCast_apply v _ (ix2 (nodeRow r i) d) (ix3 r i d) (by
    rw [Shape.rowMajor_val_three, Shape.rowMajor_val_two]
    show (r.val * 32 + i.val) * 128 + d.val = (r.val * 32 + i.val) * 128 + d.val; rfl)

theorem cast_nodes (v : FVec Ideal S8192x16 .f32) (r : Fin 256) (i : Fin 32) (o : Fin 16) :
    shapeCast S256x32x16 v shapeCasts_S8192x16_S256x32x16 (ix3 r i o) = v (ix2 (nodeRow r i) o) :=
  shapeCast_apply v _ (ix3 r i o) (ix2 (nodeRow r i) o) (by
    rw [Shape.rowMajor_val_three, Shape.rowMajor_val_two]
    show (r.val * 32 + i.val) * 16 + o.val = (r.val * 32 + i.val) * 16 + o.val; rfl)

theorem cast_adj (v : FVec Ideal S256x1024 .bf16) (r : Fin 256) (i j : Fin 32) :
    shapeCast S256x32x32 v shapeCasts_S256x1024_S256x32x32 (ix3 r i j) = v (ix2 r (flat i j)) :=
  shapeCast_apply v _ (ix3 r i j) (ix2 r (flat i j)) (by
    rw [Shape.rowMajor_val_three, Shape.rowMajor_val_two]
    show r.val * 1024 + (i.val * 32 + j.val) = (r.val * 32 + i.val) * 32 + j.val; omega)

theorem cast_out (v : FVec Ideal S256x32x16 .bf16) (r : Fin 256) (c : Fin 512) :
    shapeCast S256x512 v shapeCasts_S256x32x16_S256x512 (ix2 r c) = v (ix3 r (nodeOf c) (featOf c)) :=
  shapeCast_apply v _ (ix2 r c) (ix3 r (nodeOf c) (featOf c)) (by
    rw [Shape.rowMajor_val_three, Shape.rowMajor_val_two]
    have := c.isLt
    show (r.val * 32 + c.val / 16) * 16 + c.val % 16 = r.val * 512 + c.val; omega)

/-- The bias row broadcast over samples and nodes. -/
theorem bias_apply (v : FVec Ideal S1x16 .f32) (r : Fin 256) (i : Fin 32) (o : Fin 16) :
    broadcastTo S256x32x16 (shapeCast S1x1x16 (shapeCast S16 v shapeCasts_S1x16_S16) shapeCasts_S16_S1x1x16)
      broadcasts_S1x1x16_S256x32x16 (ix3 r i o) = v (ix2 (0 : Fin 1) o) := by
  rw [broadcastTo_apply _ broadcasts_S1x1x16_S256x32x16 (ix3 r i o) (ix3 (0 : Fin 1) (0 : Fin 1) o) (fun a => by
    match a with
    | ⟨0, _⟩ => show 0 = if (1 : Nat) = 1 then 0 else _; rw [if_pos rfl]
    | ⟨1, _⟩ => show 0 = if (1 : Nat) = 1 then 0 else _; rw [if_pos rfl]
    | ⟨2, _⟩ => show o.val = if (16 : Nat) = 1 then 0 else o.val; rw [if_neg (by decide)])]
  rw [shapeCast_apply _ shapeCasts_S16_S1x1x16 (ix3 (0 : Fin 1) (0 : Fin 1) o) (ix1 o) (by
    rw [Shape.rowMajor_val_three, Shape.rowMajor_val_one]
    show o.val = (0 * 1 + 0) * 16 + o.val; omega)]
  exact shapeCast_apply v shapeCasts_S1x16_S16 (ix1 o) (ix2 (0 : Fin 1) o) (by
    rw [Shape.rowMajor_val_two, Shape.rowMajor_val_one]
    show 0 * 16 + o.val = o.val; omega)

/-! ## The product of all node rows with the weights -/

theorem lhs_rows_0 (i : S8192x16.Idx) (q : dot_S8192x128_S128x16_S8192x16_1_0_0_1_n_n.contr.Idx) :
    (dot_S8192x128_S128x16_S8192x16_1_0_0_1_n_n.lhsIdx i q 0).val = (i 0).val := by
  unfold DotDims.lhsIdx
  rw [dif_neg (show ¬(0 : Fin S8192x128.rank) ∈ dot_S8192x128_S128x16_S8192x16_1_0_0_1_n_n.lhsBatch by decide), dif_pos (show (0 : Fin S8192x128.rank) ∈ dot_S8192x128_S128x16_S8192x16_1_0_0_1_n_n.lhsNonContracting by decide)]
  rfl
theorem lhs_rows_1 (i : S8192x16.Idx) (q : dot_S8192x128_S128x16_S8192x16_1_0_0_1_n_n.contr.Idx) :
    (dot_S8192x128_S128x16_S8192x16_1_0_0_1_n_n.lhsIdx i q 1).val = (q ⟨0, by decide⟩).val :=
  dot_S8192x128_S128x16_S8192x16_1_0_0_1_n_n.lhsIdx_val_of_single rfl i q
theorem rhs_rows_0 (i : S8192x16.Idx) (q : dot_S8192x128_S128x16_S8192x16_1_0_0_1_n_n.contr.Idx) :
    (dot_S8192x128_S128x16_S8192x16_1_0_0_1_n_n.rhsIdx i q 0).val = (q ⟨0, by decide⟩).val :=
  dot_S8192x128_S128x16_S8192x16_1_0_0_1_n_n.rhsIdx_val_of_single rfl i q
theorem rhs_rows_1 (i : S8192x16.Idx) (q : dot_S8192x128_S128x16_S8192x16_1_0_0_1_n_n.contr.Idx) :
    (dot_S8192x128_S128x16_S8192x16_1_0_0_1_n_n.rhsIdx i q 1).val = (i 1).val := by
  unfold DotDims.rhsIdx
  rw [dif_neg (show ¬(1 : Fin S128x16.rank) ∈ dot_S8192x128_S128x16_S8192x16_1_0_0_1_n_n.rhsBatch by decide), dif_pos (show (1 : Fin S128x16.rank) ∈ dot_S8192x128_S128x16_S8192x16_1_0_0_1_n_n.rhsNonContracting by decide)]
  rfl

/-- Row `R`, column `o` of the product: the sum over the 128 input features. -/
theorem matmul_rows_apply (l : FVec Ideal S8192x128 .f32) (w : FVec Ideal S128x16 .f32) (R : Fin 8192) (o : Fin 16) :
    matmul dot_S8192x128_S128x16_S8192x16_1_0_0_1_n_n none l w (constant S8192x16 .f32 0x00000000#32) (ix2 R o)
      = ∑ d : Fin 128, l (ix2 R d) * w (ix2 d o) := by
  simp only [matmul]
  rw [Ideal.matmul_constant_zero_apply, ← Equiv.sum_comp (contrEquiv1 dot_S8192x128_S128x16_S8192x16_1_0_0_1_n_n 128 rfl rfl).symm]
  refine Finset.sum_congr rfl fun k _ => ?_
  have hk := contrEquiv1_symm_val dot_S8192x128_S128x16_S8192x16_1_0_0_1_n_n 128 rfl rfl k
  have el : dot_S8192x128_S128x16_S8192x16_1_0_0_1_n_n.lhsIdx (ix2 R o) ((contrEquiv1 dot_S8192x128_S128x16_S8192x16_1_0_0_1_n_n 128 rfl rfl).symm k) = ix2 R k := funext fun a => Fin.ext (by
    match a with
    | ⟨0, _⟩ => exact lhs_rows_0 _ _
    | ⟨1, _⟩ => exact (lhs_rows_1 _ _).trans hk)
  have er : dot_S8192x128_S128x16_S8192x16_1_0_0_1_n_n.rhsIdx (ix2 R o) ((contrEquiv1 dot_S8192x128_S128x16_S8192x16_1_0_0_1_n_n 128 rfl rfl).symm k) = ix2 k o := funext fun a => Fin.ext (by
    match a with
    | ⟨0, _⟩ => exact (rhs_rows_0 _ _).trans hk
    | ⟨1, _⟩ => exact rhs_rows_1 _ _)
  rw [el, er]

/-! ## The sample-by-sample product with the adjacency -/

theorem lhs_batch_0 (i : S256x32x16.Idx) (q : dot_S256x32x32_S256x32x16_S256x32x16_2_1_1_2_0_0.contr.Idx) :
    (dot_S256x32x32_S256x32x16_S256x32x16_2_1_1_2_0_0.lhsIdx i q 0).val = (i 0).val := by
  unfold DotDims.lhsIdx
  rw [dif_pos (show (0 : Fin S256x32x32.rank) ∈ dot_S256x32x32_S256x32x16_S256x32x16_2_1_1_2_0_0.lhsBatch by decide)]
  rfl
theorem lhs_batch_1 (i : S256x32x16.Idx) (q : dot_S256x32x32_S256x32x16_S256x32x16_2_1_1_2_0_0.contr.Idx) :
    (dot_S256x32x32_S256x32x16_S256x32x16_2_1_1_2_0_0.lhsIdx i q 1).val = (i 1).val := by
  unfold DotDims.lhsIdx
  rw [dif_neg (show ¬(1 : Fin S256x32x32.rank) ∈ dot_S256x32x32_S256x32x16_S256x32x16_2_1_1_2_0_0.lhsBatch by decide), dif_pos (show (1 : Fin S256x32x32.rank) ∈ dot_S256x32x32_S256x32x16_S256x32x16_2_1_1_2_0_0.lhsNonContracting by decide)]
  rfl
theorem lhs_batch_2 (i : S256x32x16.Idx) (q : dot_S256x32x32_S256x32x16_S256x32x16_2_1_1_2_0_0.contr.Idx) :
    (dot_S256x32x32_S256x32x16_S256x32x16_2_1_1_2_0_0.lhsIdx i q 2).val = (q ⟨0, by decide⟩).val :=
  dot_S256x32x32_S256x32x16_S256x32x16_2_1_1_2_0_0.lhsIdx_val_of_single rfl i q
theorem rhs_batch_0 (i : S256x32x16.Idx) (q : dot_S256x32x32_S256x32x16_S256x32x16_2_1_1_2_0_0.contr.Idx) :
    (dot_S256x32x32_S256x32x16_S256x32x16_2_1_1_2_0_0.rhsIdx i q 0).val = (i 0).val := by
  unfold DotDims.rhsIdx
  rw [dif_pos (show (0 : Fin S256x32x16.rank) ∈ dot_S256x32x32_S256x32x16_S256x32x16_2_1_1_2_0_0.rhsBatch by decide)]
  rfl
theorem rhs_batch_1 (i : S256x32x16.Idx) (q : dot_S256x32x32_S256x32x16_S256x32x16_2_1_1_2_0_0.contr.Idx) :
    (dot_S256x32x32_S256x32x16_S256x32x16_2_1_1_2_0_0.rhsIdx i q 1).val = (q ⟨0, by decide⟩).val :=
  dot_S256x32x32_S256x32x16_S256x32x16_2_1_1_2_0_0.rhsIdx_val_of_single rfl i q
theorem rhs_batch_2 (i : S256x32x16.Idx) (q : dot_S256x32x32_S256x32x16_S256x32x16_2_1_1_2_0_0.contr.Idx) :
    (dot_S256x32x32_S256x32x16_S256x32x16_2_1_1_2_0_0.rhsIdx i q 2).val = (i 2).val := by
  unfold DotDims.rhsIdx
  rw [dif_neg (show ¬(2 : Fin S256x32x16.rank) ∈ dot_S256x32x32_S256x32x16_S256x32x16_2_1_1_2_0_0.rhsBatch by decide), dif_pos (show (2 : Fin S256x32x16.rank) ∈ dot_S256x32x32_S256x32x16_S256x32x16_2_1_1_2_0_0.rhsNonContracting by decide)]
  rfl

/-- Sample `r`, node `i`, feature `o` of the batched product: the sum over the 32 neighbours. -/
theorem matmul_batch_apply (l : FVec Ideal S256x32x32 .bf16) (y : FVec Ideal S256x32x16 .bf16) (r : Fin 256) (i : Fin 32) (o : Fin 16) :
    matmul dot_S256x32x32_S256x32x16_S256x32x16_2_1_1_2_0_0 none l y (constant S256x32x16 .f32 0x00000000#32) (ix3 r i o)
      = ∑ j : Fin 32, l (ix3 r i j) * y (ix3 r j o) := by
  simp only [matmul]
  rw [Ideal.matmul_constant_zero_apply, ← Equiv.sum_comp (contrEquiv1 dot_S256x32x32_S256x32x16_S256x32x16_2_1_1_2_0_0 32 rfl rfl).symm]
  refine Finset.sum_congr rfl fun k _ => ?_
  have hk := contrEquiv1_symm_val dot_S256x32x32_S256x32x16_S256x32x16_2_1_1_2_0_0 32 rfl rfl k
  have el : dot_S256x32x32_S256x32x16_S256x32x16_2_1_1_2_0_0.lhsIdx (ix3 r i o) ((contrEquiv1 dot_S256x32x32_S256x32x16_S256x32x16_2_1_1_2_0_0 32 rfl rfl).symm k) = ix3 r i k := funext fun a => Fin.ext (by
    match a with
    | ⟨0, _⟩ => exact lhs_batch_0 _ _
    | ⟨1, _⟩ => exact lhs_batch_1 _ _
    | ⟨2, _⟩ => exact (lhs_batch_2 _ _).trans hk)
  have er : dot_S256x32x32_S256x32x16_S256x32x16_2_1_1_2_0_0.rhsIdx (ix3 r i o) ((contrEquiv1 dot_S256x32x32_S256x32x16_S256x32x16_2_1_1_2_0_0 32 rfl rfl).symm k) = ix3 r k o := funext fun a => Fin.ext (by
    match a with
    | ⟨0, _⟩ => exact rhs_batch_0 _ _
    | ⟨1, _⟩ => exact (rhs_batch_1 _ _).trans hk
    | ⟨2, _⟩ => exact rhs_batch_2 _ _)
  rw [el, er]

/-! ## The body's intermediate arrays -/

variable (x : FVec Ideal S256x32x128 .f32) (w : FVec Ideal S128x16 .f32) (g : IVec S256x1024 32) (bv : FVec Ideal S1x16 .f32)

/-- Sample `r` of the feature block. -/
def blockX (r : Fin 256) : Fin 32 → Fin 128 → EReal := fun m d => x (ix3 r m d)
/-- Sample `r` of the adjacency block, un-flattened and read as signed integers. -/
def blockA (r : Fin 256) : Fin 32 → Fin 32 → EReal := fun m k => (((g (ix2 r (flat m k))).toInt : ℝ) : EReal)
/-- The weights by row and column. -/
def blockW : Fin 128 → Fin 16 → EReal := fun d o => w (ix2 d o)
/-- The bias row by feature. -/
def blockB : Fin 16 → EReal := fun o => bv (ix2 (0 : Fin 1) o)

/-- The adjacency matrices as floats. -/
def adjF : FVec Ideal S256x32x32 .bf16 :=
  shapeCast S256x32x32 (sitofp .bf16 (shapeCast S256x1024 g shapeCasts_S256x1024_S256x1024)) shapeCasts_S256x1024_S256x32x32
/-- `X W` per sample and node. -/
def projF : FVec Ideal S256x32x16 .f32 :=
  shapeCast S256x32x16 (matmul dot_S8192x128_S128x16_S8192x16_1_0_0_1_n_n none (shapeCast S8192x128 x shapeCasts_S256x32x128_S8192x128) w
    (constant S8192x16 .f32 0x00000000#32)) shapeCasts_S8192x16_S256x32x16
/-- The normalizer, replicated over the 16 output features. -/
def scaleF : FVec Ideal S256x32x16 .f32 :=
  rsqrt (addf (matmul dot_S256x32x32_S256x32x16_S256x32x16_2_1_1_2_0_0 none (adjF g) (broadcast S256x32x16 (Scalar.ofBits .bf16 0x3F80#16))
    (constant S256x32x16 .f32 0x00000000#32)) (broadcast S256x32x16 (Scalar.ofBits .f32 0x3F800000#32)))

theorem adjF_apply (r : Fin 256) (i j : Fin 32) : adjF g (ix3 r i j) = blockA g r i j := by
  unfold adjF
  rw [cast_adj, shapeCast_self]
  rfl

theorem projF_apply (r : Fin 256) (i : Fin 32) (o : Fin 16) : projF x w (ix3 r i o) = proj (blockX x r) (blockW w) i o := by
  unfold projF
  rw [cast_nodes, matmul_rows_apply]
  unfold proj
  refine Finset.sum_congr rfl fun d _ => ?_
  rw [cast_rows]
  rfl

theorem scaleF_apply (r : Fin 256) (i : Fin 32) (o : Fin 16) : scaleF g (ix3 r i o) = scaleFolded (blockA g r) 1 1 i := by
  unfold scaleF
  show Ideal.rsqrt (matmul dot_S256x32x32_S256x32x16_S256x32x16_2_1_1_2_0_0 none (adjF g) (broadcast S256x32x16 (Scalar.ofBits .bf16 0x3F80#16))
    (constant S256x32x16 .f32 0x00000000#32) (ix3 r i o) + Ideal.ofBits .f32 0x3F800000#32) = _
  rw [matmul_batch_apply, ofBits_one_f32]
  unfold scaleFolded
  refine congrArg (fun t => Ideal.rsqrt (t + 1)) (Finset.sum_congr rfl fun j _ => ?_)
  rw [adjF_apply]
  show _ * Ideal.ofBits .bf16 0x3F80#16 = _
  rw [ofBits_one_bf16]

/-- The body's stored value is this composition of the intermediate arrays. -/
theorem pay_eq : k0_pay1 (F := Ideal) x w g bv
    = extf .f32 (shapeCast S256x512 (truncf .bf16 (addf (mulf (addf
        (matmul dot_S256x32x32_S256x32x16_S256x32x16_2_1_1_2_0_0 none (adjF g) (truncf .bf16 (mulf (projF x w) (scaleF g)) bitsLt_bf16_f32) (constant S256x32x16 .f32 0x00000000#32))
        (mulf (projF x w) (scaleF g))) (scaleF g))
        (broadcastTo S256x32x16 (shapeCast S1x1x16 (shapeCast S16 bv shapeCasts_S1x16_S16) shapeCasts_S16_S1x1x16) broadcasts_S1x1x16_S256x32x16))
        bitsLt_bf16_f32) shapeCasts_S256x32x16_S256x512) bitsLt_bf16_f32 := rfl

/-- THE STORED VALUE AT AN ENTRY: the folded arrangement on sample `r` of the blocks. -/
theorem pay_apply (r : Fin 256) (c : Fin 512) :
    k0_pay1 (F := Ideal) x w g bv (ix2 r c)
      = gcnFolded (blockX x r) (blockA g r) (blockW w) (blockB bv) 1 1 (nodeOf c) (featOf c) := by
  rw [pay_eq, extf_apply, cast_out, truncf_apply, addf_apply, mulf_apply, addf_apply, mulf_apply, bias_apply, matmul_batch_apply]
  unfold gcnFolded
  simp only [truncf_apply, mulf_apply, adjF_apply, projF_apply, scaleF_apply]
  rfl

end Cert.KernelIdeal.Payload

end
-- ==== Proof.KernelBlocks.lean ====
/-
  From the 16 blocks to the whole result array.

  Grid point `t` handles samples `256 t … 256 t + 255`: its feature block is those rows of the feature array, its adjacency
  block those rows of the adjacency array with each 32 × 32 matrix flattened (the host re-lays the array as 4096 × 1024
  before the call), the weights and the bias row (the host re-lays the bias as 1 × 16) are whole.  So what the point writes
  back — the body's stored value on its blocks — is rows `256 t … 256 t + 255` of `Cert.Gcn.layerFolded` of the argument
  arrays (`flushed_eq`), the 16 row blocks cover the 4096 rows (`cover`), and the result array ends holding
  `layerFolded` of the arguments (`final`, `run`).
-/
import proofs.«157879_g72318659330489_cont_9to1c4b_23_24_alg».proof.Proof.Gen.KernelIdeal.Value
import proofs.«157879_g72318659330489_cont_9to1c4b_23_24_alg».proof.Proof.KernelPayload
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Cert.KernelIdeal.Payload Idealize.ShloMosaic Idealize.ShloMosaic.TcCoe Idealize.SL.Sem
open Idealize.ShloMosaic.Pipeline (Dat)
open Idealize.ShloMosaic.ValueIdx Cert.Gcn

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The argument arrays and the blocks, by their literal types -/

abbrev argX (c : Dev nD) : FVec Ideal S4096x32x128 .f32 := m ((c : Thread nD τ).loc main_arg0)
abbrev argA (c : Dev nD) : IVec S4096x32x32 32 := m ((c : Thread nD τ).loc main_arg1)
abbrev argW (c : Dev nD) : FVec Ideal S128x16 .f32 := m ((c : Thread nD τ).loc main_arg2)
abbrev argB (c : Dev nD) : FVec Ideal S16 .f32 := m ((c : Thread nD τ).loc main_arg3)

abbrev xblk (c : Dev nD) (t : Fin cfg0.N) : FVec Ideal S256x32x128 .f32 := iblk m c 0 t
abbrev gblk (c : Dev nD) (t : Fin cfg0.N) : IVec S256x1024 32 := iblk m c 1 t
abbrev wblk (c : Dev nD) (t : Fin cfg0.N) : FVec Ideal S128x16 .f32 := iblk m c 2 t
abbrev bblk (c : Dev nD) (t : Fin cfg0.N) : FVec Ideal S1x16 .f32 := iblk m c 3 t

/-- The result: the layer of the argument arrays, self loop folded in. -/
abbrev result (c : Dev nD) : (⟨2, ![4096, 512]⟩ : Shape).Idx → EReal :=
  layerFolded (argX m c) (argA m c) (argW m c) (argB m c)

/-- Sample `r` of point `t`'s blocks is sample `256 t + r` of the batch. -/
def row (t : Fin cfg0.N) (r : Fin 256) : Fin 4096 :=
  ⟨t.val * 256 + r.val, by
    have h : t.val < 16 := Nat.lt_of_lt_of_eq t.isLt (show cfg0.N = 16 from N_0)
    have := r.isLt; omega⟩

/-! ## The index maps, decided over the grid -/

theorem idx_x : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_g : ∀ t : Fin cfg0.N, win0_1.index t (0 : Fin 2) = t.val ∧ win0_1.index t (1 : Fin 2) = 0 :=
  (by decide +kernel : ∀ t : Fin grid0.N, _)
theorem idx_w : ∀ t : Fin cfg0.N, win0_2.index t (0 : Fin 2) = 0 ∧ win0_2.index t (1 : Fin 2) = 0 :=
  (by decide +kernel : ∀ t : Fin grid0.N, _)
theorem idx_b : ∀ t : Fin cfg0.N, win0_3.index t (0 : Fin 2) = 0 ∧ win0_3.index t (1 : Fin 2) = 0 :=
  (by decide +kernel : ∀ t : Fin grid0.N, _)
theorem idx_o : ∀ t : Fin cfg0.N, win0_4.index t (0 : Fin 2) = t.val ∧ win0_4.index t (1 : Fin 2) = 0 :=
  (by decide +kernel : ∀ t : Fin grid0.N, _)

/-! ## The arrays the host re-lays before the call -/

/-- The adjacency as the region finds it: each sample's matrix flattened to a row. -/
theorem V_adj (c : Dev nD) : (V m c main_v0 : S4096x1024.Idx → BitVec 32)
    = shapeCast S4096x1024 (argA m c) shapeCasts_S4096x32x32_S4096x1024 := by
  dsimp only [V, hostOps0]; after_results; rfl

/-- The bias as the region finds it: one row. -/
theorem V_bias (c : Dev nD) : (V m c main_v1 : S1x16.Idx → EReal)
    = shapeCast S1x16 (argB m c) shapeCasts_S16_S1x16 := by
  dsimp only [V, hostOps0]; after_results; rfl

/-! ## Each block as rows of its argument -/

theorem xblk_apply (c : Dev nD) (t : Fin cfg0.N) (r : Fin 256) (i : Fin 32) (d : Fin 128) :
    xblk m c t (ix3 r i d) = argX m c (ix3 (row t r) i d) := by
  obtain ⟨e0, e1, e2⟩ := idx_x t
  show V m c main_arg0 (((cfg0.win 0).blk t).view.emb (ix3 r i d)) = m ((c : Thread nD τ).loc main_arg0) (ix3 (row t r) i d)
  rw [V_main_arg0]
  refine congrArg _ (funext fun a => Fin.ext ?_)
  match a with
  | ⟨0, _⟩ => show win0_0.index t (0 : Fin 3) * 256 + 1 * r.val = t.val * 256 + r.val; rw [e0]; omega
  | ⟨1, _⟩ => show win0_0.index t (1 : Fin 3) * 32 + 1 * i.val = i.val; rw [e1]; omega
  | ⟨2, _⟩ => show win0_0.index t (2 : Fin 3) * 128 + 1 * d.val = d.val; rw [e2]; omega

theorem gblk_apply (c : Dev nD) (t : Fin cfg0.N) (r : Fin 256) (i j : Fin 32) :
    gblk m c t (ix2 r (flat i j)) = argA m c (ix3 (row t r) i j) := by
  obtain ⟨e0, e1⟩ := idx_g t
  show (V m c main_v0 : S4096x1024.Idx → BitVec 32) (((cfg0.win 1).blk t).view.emb (ix2 r (flat i j))) = _
  rw [V_adj]
  have hemb : ((cfg0.win 1).blk t).view.emb (ix2 r (flat i j)) = ix2 (row t r) (flat i j) :=
    funext fun a => Fin.ext (by
      match a with
      | ⟨0, _⟩ => show win0_1.index t (0 : Fin 2) * 256 + 1 * r.val = t.val * 256 + r.val; rw [e0]; omega
      | ⟨1, _⟩ => show win0_1.index t (1 : Fin 2) * 1024 + 1 * (i.val * 32 + j.val) = i.val * 32 + j.val; rw [e1]; omega)
  rw [hemb]
  exact shapeCast_apply _ shapeCasts_S4096x32x32_S4096x1024 (ix2 (row t r) (flat i j)) (ix3 (row t r) i j) (by
    rw [Shape.rowMajor_val_three, Shape.rowMajor_val_two]
    show ((t.val * 256 + r.val) * 32 + i.val) * 32 + j.val = (t.val * 256 + r.val) * 1024 + (i.val * 32 + j.val); omega)

theorem wblk_apply (c : Dev nD) (t : Fin cfg0.N) (d : Fin 128) (o : Fin 16) :
    wblk m c t (ix2 d o) = argW m c (ix2 d o) := by
  obtain ⟨e0, e1⟩ := idx_w t
  show V m c main_arg2 (((cfg0.win 2).blk t).view.emb (ix2 d o)) = m ((c : Thread nD τ).loc main_arg2) (ix2 d o)
  rw [V_main_arg2]
  refine congrArg _ (funext fun a => Fin.ext ?_)
  match a with
  | ⟨0, _⟩ => show win0_2.index t (0 : Fin 2) * 128 + 1 * d.val = d.val; rw [e0]; omega
  | ⟨1, _⟩ => show win0_2.index t (1 : Fin 2) * 16 + 1 * o.val = o.val; rw [e1]; omega

theorem bblk_apply (c : Dev nD) (t : Fin cfg0.N) (o : Fin 16) :
    bblk m c t (ix2 (0 : Fin 1) o) = argB m c (ix1 o) := by
  obtain ⟨e0, e1⟩ := idx_b t
  show (V m c main_v1 : S1x16.Idx → EReal) (((cfg0.win 3).blk t).view.emb (ix2 (0 : Fin 1) o)) = _
  rw [V_bias]
  have hemb : ((cfg0.win 3).blk t).view.emb (ix2 (0 : Fin 1) o) = ix2 (0 : Fin 1) o :=
    funext fun a => Fin.ext (by
      match a with
      | ⟨0, _⟩ => show win0_3.index t (0 : Fin 2) * 1 + 1 * 0 = 0; rw [e0]
      | ⟨1, _⟩ => show win0_3.index t (1 : Fin 2) * 16 + 1 * o.val = o.val; rw [e1]; omega)
  rw [hemb]
  exact shapeCast_apply _ shapeCasts_S16_S1x16 (ix2 (0 : Fin 1) o) (ix1 o) (by
    rw [Shape.rowMajor_val_two, Shape.rowMajor_val_one]
    show o.val = 0 * 16 + o.val; omega)

/-! ## What a point writes back -/

/-- WHAT POINT `t` WRITES BACK is rows `256 t … 256 t + 255` of the layer of the argument arrays. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero hz2]
  simp only [View.ld_unit_zero (S := S256x32x128) hz3, View.ld_unit_zero (S := S128x16) hz2,
    View.ld_unit_zero (S := S256x1024) hz2, View.ld_unit_zero (S := S1x16) hz2]
  funext y
  obtain ⟨r, q, rfl⟩ : ∃ (r : Fin 256) (q : Fin 512), y = ix2 r q := ⟨y 0, y 1, eq_ix2 y⟩
  obtain ⟨e0, e1⟩ := idx_o t
  have hemb : ((cfg0.win 4).blk t).view.emb (ix2 r q) = ix2 (row t r) q :=
    funext fun a => Fin.ext (by
      match a with
      | ⟨0, _⟩ => show win0_4.index t (0 : Fin 2) * 256 + 1 * r.val = t.val * 256 + r.val; rw [e0]; omega
      | ⟨1, _⟩ => show win0_4.index t (1 : Fin 2) * 512 + 1 * q.val = q.val; rw [e1]; omega)
  show k0_pay1 (F := Ideal) (xblk m c t) (wblk m c t) (gblk m c t) (bblk m c t) (ix2 r q)
    = result m c (((cfg0.win 4).blk t).view.emb (ix2 r q))
  rw [hemb, pay_apply]
  have hX : blockX (xblk m c t) r = sampleX (argX m c) (row t r) := by
    funext i d; exact xblk_apply m c t r i d
  have hA : blockA (gblk m c t) r = sampleA (argA m c) (row t r) := by
    funext i j; unfold blockA sampleA; rw [gblk_apply]
  have hW : blockW (wblk m c t) = matW (argW m c) := by
    funext d o; exact wblk_apply m c t d o
  have hB : blockB (bblk m c t) = vecB (argB m c) := by
    funext o; exact bblk_apply m c t o
  rw [hX, hA, hW, hB]
  rfl

/-! ## The cover and the final array -/

theorem mem_blk (t : Fin cfg0.N) (i : S4096x512.Idx) :
    i ∈ ((cfg0.win 4).blk t).view.set ↔ ∀ a : Fin 2, win0_4.index t a * S256x512.size a ≤ (i a).val ∧ (i a).val < win0_4.index t a * S256x512.size a + S256x512.size a := by
  show i ∈ ((View.whole main_v2).slice (win0_4.rect t)).set ↔ _
  rw [View.set_slice_whole, Rect.mem_set_unit]
  exact Iff.rfl

/-- Row `B` of the result lies in the block of point `B / 256`. -/
theorem cover (i : S4096x512.Idx) :
    ∃ t : Fin cfg0.N, (cfg0.win 4).flush t = true ∧ i ∈ ((cfg0.win 4).blk t).view.set := by
  have h0 : (i 0).val < 4096 := (i 0).isLt
  have h1 : (i 1).val < 512 := (i 1).isLt
  let t : Fin cfg0.N := ⟨(i 0).val / 256, by rw [show cfg0.N = 16 from N_0]; omega⟩
  obtain ⟨e0, e1⟩ := idx_o t
  have ht : t.val = (i 0).val / 256 := rfl
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; rw [e0, ht]; omega
  | ⟨1, _⟩ => show win0_4.index t (1 : Fin 2) * 512 ≤ (i 1).val ∧ (i 1).val < win0_4.index t (1 : Fin 2) * 512 + 512; rw [e1]; omega

/-- THE RESULT ARRAY after the run is the layer of the argument arrays. -/
theorem final (c : Dev nD) : (dats m 0 c).arrAt 4 cfg0.N = result m c :=
  (dats m 0 c).arrAt_eq_of_cover 4 (result m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩)
    (Cert.KernelIdeal.Value.run_blocks m ρ)

end Cert.KernelIdeal.Blocks

end
-- ==== Proof.RefLayer.lean ====
/-
  The reference's result array is the layer through the normalized adjacency matrix (`Cert.Gcn.layerNormalized`).

  The reference converts the integer adjacency to floats, adds the identity matrix (built by comparing a row counter with a
  column counter), sums each row for the degree, takes its reciprocal square root, scales row `i` and column `m` of
  `A + I` by it, multiplies with `X W`, adds the bias and flattens the node and feature axes.  Each of these stages is read
  at an index here: the identity matrix's entry (`eye_apply`), an entry of `A + I` (`ahat_apply`), a degree (`deg_apply`), a
  normalizer (`scale_apply`), an entry of the normalized matrix (`norm_apply`), an entry of `X W` (`proj_apply`), an entry
  of the layer before flattening (`layer_apply`) and, through the flattening, the result (`result_eq`).
-/
import proofs.«157879_g72318659330489_cont_9to1c4b_23_24_alg».proof.Proof.Gen.ReferenceIdeal.Read
import proofs.«157879_g72318659330489_cont_9to1c4b_23_24_alg».proof.Proof.GcnLayer
import Idealize.ShloMosaic.Lib.StableHlo.Predicate

noncomputable section

namespace Cert.ReferenceIdeal.Layer

open Cert.ReferenceIdeal Cert.ReferenceIdeal.Gen Cert.ReferenceIdeal.Read Idealize.ShloMosaic Idealize.ShloMosaic.TcCoe
open Idealize.ShloMosaic.ValueIdx Cert.Gcn

/-- The identity matrix the reference builds: row counter equal to column counter, as a float. -/
theorem eye_apply (i m : Fin 32) : val_main_v6 (F := Ideal) (ix2 i m) = eyeE i m := by
  rw [val_main_v6_apply, val_main_v5_apply, val_main_v4_apply, val_main_v1_apply, val_main_v2_apply, val_main_v3_apply,
    val_main_c_apply]
  show (((IntOp.cmpi .eq (IntOp.addi (BitVec.ofNat 32 i.val) 0#32) (BitVec.ofNat 32 m.val)).toNat : ℝ) : EReal) = _
  have hi := i.isLt
  have hm := m.isLt
  have e0 : IntOp.addi (BitVec.ofNat 32 i.val) 0#32 = BitVec.ofNat 32 i.val := by
    show BitVec.ofNat 32 i.val + 0#32 = _; exact BitVec.add_zero _
  rw [e0]
  unfold eyeE
  by_cases h : i = m
  · subst h
    rw [if_pos rfl, StableHlo.Predicate.cmpi_eq_iff.mpr rfl]
    norm_num
  · rw [if_neg h]
    have hne : IntOp.cmpi .eq (BitVec.ofNat 32 i.val) (BitVec.ofNat 32 m.val) ≠ 1#1 := by
      rw [Ne, StableHlo.Predicate.cmpi_eq_iff]
      intro he
      have ht := congrArg BitVec.toNat he
      simp only [BitVec.toNat_ofNat] at ht
      exact h (Fin.ext (by omega))
    rcases BitVec.eq_zero_or_eq_one (IntOp.cmpi .eq (BitVec.ofNat 32 i.val) (BitVec.ofNat 32 m.val)) with h0 | h1
    · rw [h0]; norm_num
    · exact absurd h1 hne

variable (X : (⟨S4096x32x128, .f32⟩ : BufTy).Contents (Elt Ideal)) (A : (⟨S4096x32x32, .i32⟩ : BufTy).Contents (Elt Ideal))
  (W : (⟨S128x16, .f32⟩ : BufTy).Contents (Elt Ideal)) (b : (⟨S16, .f32⟩ : BufTy).Contents (Elt Ideal))

/-- An entry of `A + I` for sample `B`. -/
theorem ahat_apply (B : Fin 4096) (i m : Fin 32) :
    val_main_v9 (F := Ideal) A (ix3 B i m) = sampleA A B i m + eyeE i m := by
  rw [val_main_v9_apply, val_main_v0_apply, val_main_v8_apply, val_main_v7_apply]
  have e : idx_main_v7 (idx_main_v8 (ix3 B i m)) = ix2 i m :=
    funext fun a => Fin.ext (by match a with | ⟨0, _⟩ => rfl | ⟨1, _⟩ => rfl)
  rw [e, eye_apply]
  rfl

/-- The degree of node `i` of sample `B`: the row of `A + I` summed from zero. -/
theorem deg_apply (B : Fin 4096) (i : Fin 32) : val_main_v10 (F := Ideal) A (ix2 B i) = degree A B i := by
  rw [val_main_v10_apply, val_main_cst_apply]
  show Ideal.ofBits .f32 0x00000000#32 + _ = _
  rw [Ideal.ofBits_zero_f32]
  unfold degree
  refine congrArg (0 + ·) (Finset.sum_congr rfl fun k _ => ?_)
  have e : idx_main_v10 (ix2 B i) k = ix3 B i k :=
    funext fun a => Fin.ext (by match a with | ⟨0, _⟩ => rfl | ⟨1, _⟩ => rfl | ⟨2, _⟩ => rfl)
  rw [e, ahat_apply]

/-- The normalizer of node `i` of sample `B`. -/
theorem scale_apply (B : Fin 4096) (i : Fin 32) :
    val_main_v11 (F := Ideal) A (ix2 B i) = scaleNormalized (sampleA A B) eyeE 0 i := by
  rw [val_main_v11_apply, deg_apply]
  rfl

/-- An entry of the normalized matrix: the entry of `A + I` scaled by its row's and its column's normalizer. -/
theorem norm_apply (B : Fin 4096) (i m : Fin 32) :
    val_main_v17 (F := Ideal) A (ix3 B i m)
      = ((sampleA A B i m + eyeE i m) * scaleNormalized (sampleA A B) eyeE 0 i) * scaleNormalized (sampleA A B) eyeE 0 m := by
  rw [val_main_v17_apply, val_main_v14_apply, ahat_apply, val_main_v13_apply, val_main_v12_apply, val_main_v16_apply,
    val_main_v15_apply]
  have e1 : idx_main_v12 (idx_main_v13 (ix3 B i m)) = ix2 B i :=
    funext fun a => Fin.ext (by match a with | ⟨0, _⟩ => rfl | ⟨1, _⟩ => rfl)
  have e2 : idx_main_v15 (idx_main_v16 (ix3 B i m)) = ix2 B m :=
    funext fun a => Fin.ext (by match a with | ⟨0, _⟩ => rfl | ⟨1, _⟩ => rfl)
  rw [e1, e2, scale_apply, scale_apply]
  rfl

/-- An entry of `X W` for sample `B`. -/
theorem proj_apply (B : Fin 4096) (m : Fin 32) (o : Fin 16) :
    val_main_v18 (F := Ideal) X W (ix3 B m o) = proj (sampleX X B) (matW W) m o := by
  rw [val_main_v18_apply]
  unfold proj
  refine Finset.sum_congr rfl fun d _ => ?_
  have el : lidx_main_v18 (ix3 B m o) d = ix3 B m d :=
    funext fun a => Fin.ext (by match a with | ⟨0, _⟩ => rfl | ⟨1, _⟩ => rfl | ⟨2, _⟩ => rfl)
  have er : ridx_main_v18 (ix3 B m o) d = ix2 d o :=
    funext fun a => Fin.ext (by match a with | ⟨0, _⟩ => rfl | ⟨1, _⟩ => rfl)
  rw [el, er]
  rfl

/-- The layer before flattening, at sample `B`, node `i`, output feature `o`. -/
theorem layer_apply (B : Fin 4096) (i : Fin 32) (o : Fin 16) :
    val_main_v22 (F := Ideal) X A W b (ix3 B i o)
      = gcnNormalized (sampleX X B) (sampleA A B) eyeE (matW W) (vecB b) 0 i o := by
  rw [val_main_v22_apply, val_main_v19_apply, val_main_v21_apply, val_main_v20_apply]
  unfold gcnNormalized
  show _ + _ = _ + _
  have eb : idx_main_v20 (idx_main_v21 (ix3 B i o)) = ix1 o :=
    funext fun a => Fin.ext (by match a with | ⟨0, _⟩ => rfl)
  rw [eb]
  refine congrArg (· + b (ix1 o)) (Finset.sum_congr rfl fun m _ => ?_)
  have el : lidx_main_v19 (ix3 B i o) m = ix3 B i m :=
    funext fun a => Fin.ext (by match a with | ⟨0, _⟩ => rfl | ⟨1, _⟩ => rfl | ⟨2, _⟩ => rfl)
  have er : ridx_main_v19 (ix3 B i o) m = ix3 B m o :=
    funext fun a => Fin.ext (by match a with | ⟨0, _⟩ => rfl | ⟨1, _⟩ => rfl | ⟨2, _⟩ => rfl)
  rw [el, er, norm_apply, proj_apply]

/-- THE REFERENCE'S RESULT is the layer through the normalized matrix, flattened. -/
theorem result_eq : val_main_v23 (F := Ideal) X A W b = layerNormalized X A W b := by
  funext k
  obtain ⟨B, c, rfl⟩ : ∃ (B : Fin 4096) (c : Fin 512), k = ix2 B c := ⟨k 0, k 1, eq_ix2 k⟩
  rw [val_main_v23_apply]
  have hB : B.val < 4096 := B.isLt
  have hc : c.val < 512 := c.isLt
  have e : idx_main_v23 (ix2 B c) = ix3 B (nodeOf c) (featOf c) :=
    funext fun a => Fin.ext (by
      match a with
      | ⟨0, _⟩ => show (B.val * 512 + c.val) / 512 = B.val; omega
      | ⟨1, _⟩ => show (B.val * 512 + c.val) / 16 % 32 = c.val / 16; omega
      | ⟨2, _⟩ => show (B.val * 512 + c.val) % 16 = c.val % 16; omega)
  rw [e, layer_apply]
  rfl

end Cert.ReferenceIdeal.Layer

end
-- ==== Proof.PreDecode.lean ====
/-
  What the precondition says, decoded.

  The precondition is one bit: the conjunction of "every feature is finite", "every weight is finite", "every bias entry is
  finite" (each the test `|v| < +∞` at every entry, and-ed over the array) and "every degree of `A + I` is positive" (the
  row sums of the adjacency converted to floats plus the identity matrix, compared with zero at every sample and node).
  From the bit being one: each float entry is a real number (an extended real whose absolute value is below `+∞` is neither
  infinity), and each degree, which is the same sum the reference takes the reciprocal square root of, is positive.
-/
import proofs.«157879_g72318659330489_cont_9to1c4b_23_24_alg».proof.Pre_finite_inputs
import proofs.«157879_g72318659330489_cont_9to1c4b_23_24_alg».proof.Proof.Gen.Pre_finite_inputs
import proofs.«157879_g72318659330489_cont_9to1c4b_23_24_alg».proof.Proof.RefLayer
import Idealize.ShloMosaic.Lib.ReduceAll
import Idealize.ShloMosaic.Lib.Affine

noncomputable section

namespace Cert.PreDecode

open Idealize.ShloMosaic Idealize.ShloMosaic.ValueIdx Cert.Gcn

instance : Subsingleton Cert.Pre_finite_inputs.S_.Idx := ⟨fun a b => funext fun d => d.elim0⟩

/-- The f32 word `0x7F800000` denotes `+∞`. -/
theorem ofBits_inf : Ideal.ofBits .f32 0x7F800000#32 = ⊤ := by
  simp [Ideal.ofBits, Ideal.ieee]

/-- A one-bit word made from a truth value is one exactly when the value is true. -/
theorem ofBool_eq_one (p : Bool) (h : BitVec.ofBool p = 1#1) : p = true := by
  cases p
  · exact absurd h (by decide)
  · rfl

/-- A comparison bit that is one is the comparison. -/
theorem lt_of_cmp_olt {x y : EReal} (h : Ideal.cmp .olt x y = 1#1) : x < y :=
  of_decide_eq_true (ofBool_eq_one _ h)
theorem lt_of_cmp_ogt {x y : EReal} (h : Ideal.cmp .ogt x y = 1#1) : y < x :=
  of_decide_eq_true (ofBool_eq_one _ h)

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's finiteness test read. -/
theorem real_of_test (x : EReal) (h : Ideal.cmp .olt (max x (-x)) (Ideal.ofBits .f32 0x7F800000#32) = 1#1) :
    ∃ r : ℝ, x = (r : EReal) := by
  rw [ofBits_inf] at h
  exact real_of_abs_lt_top x (lt_of_cmp_olt h)

/-- THE PRECONDITION, READ: real features, weights and bias; positive degrees. -/
theorem of_pre (X : FVec Ideal Cert.Pre_finite_inputs.S4096x32x128 .f32) (A : IVec Cert.Pre_finite_inputs.S4096x32x32 32)
    (W : FVec Ideal Cert.Pre_finite_inputs.S128x16 .f32) (b : FVec Ideal Cert.Pre_finite_inputs.S16 .f32)
    (h : Cert.Pre_finite_inputs.fn (F := Ideal) X A W b = fun _ => 1#1) :
    (∀ j, ∃ r : ℝ, X j = (r : EReal)) ∧ (∀ j, ∃ r : ℝ, W j = (r : EReal)) ∧ (∀ j, ∃ r : ℝ, b j = (r : EReal))
      ∧ ∀ (B : Fin 4096) (i : Fin 32), 0 < degree A B i := by
  have h0 := congrFun h ix0
  dsimp only [Cert.Pre_finite_inputs.fn, Cert.Pre_finite_inputs.fn_part1] at h0
  obtain ⟨h123, h4⟩ := IntOp.andi_eq_one.mp h0
  obtain ⟨h12, h3⟩ := IntOp.andi_eq_one.mp h123
  obtain ⟨h1, h2⟩ := IntOp.andi_eq_one.mp h12
  refine ⟨fun j => ?_, fun j => ?_, fun j => ?_, fun B i => ?_⟩
  · exact real_of_test (X j) (Host.reduce_andi_all _ _ _ _ ix0 h1 j)
  · exact real_of_test (W j) (Host.reduce_andi_all _ _ _ _ ix0 h2 j)
  · exact real_of_test (b j) (Host.reduce_andi_all _ _ _ _ ix0 h3 j)
  · have hd := Host.reduce_andi_all _ _ _ _ ix0 h4 (ix2 B i)
    have hpos : Ideal.ofBits .f32 0x00000000#32 < Cert.ReferenceIdeal.Read.val_main_v10 (F := Ideal) A (ix2 B i) :=
      lt_of_cmp_ogt hd
    rw [Ideal.ofBits_zero_f32, Cert.ReferenceIdeal.Layer.deg_apply] at hpos
    exact hpos

end Cert.PreDecode

end
-- ==== Proof.lean ====
/-
  A batched graph-convolution layer, fused in one kernel, against its plain reference.

  For each of 4096 samples with node features `X : 32 × 128`, integer adjacency `A : 32 × 32`, shared weights `W : 128 × 16`
  and bias `b : 16`, both programs compute
      out = D^(-1/2) (A + I) D^(-1/2) (X W) + b,      D = diag (row sums of A + I),
  flattened to 512 numbers per sample.  The reference forms the normalized matrix `(A + I) i m · s i · s m` with
  `s i = (D i)^(-1/2)` and multiplies it with `X W`.  The kernel, on blocks of 256 samples, obtains the degrees as `A` times a
  column of ones plus one, scales `X W` by `s`, multiplies with `A`, adds the scaled `X W` once more (the self loop, since
  `(A + I) y = A y + y`) and scales by `s` again.  On the extended reals these agree when distributivity applies: every
  feature, weight and bias entry a real number (the finiteness precondition) and every degree positive, so that every `s i`
  is a real number.  The degree condition is the domain of the reference's own reciprocal square root: with a degree of
  zero the reference's `s i` is `+∞`, which its zero row of `A + I` annihilates, while the kernel meets `∞ - ∞`.

  The modules: GcnAlgebra (the two arrangements of one sample and the law between them), GcnLayer (the same over whole
  arrays), KernelPayload (the kernel body's stored value, entry by entry), KernelBlocks (from the 16 row blocks to the
  result array), RefLayer (the reference's stages read at an index), PreDecode (what the precondition says).  Here: the
  three frames, the empty idealization ledger, and the equality of the two results.
-/
import proofs.«157879_g72318659330489_cont_9to1c4b_23_24_alg».proof.Defs
import proofs.«157879_g72318659330489_cont_9to1c4b_23_24_alg».proof.Proof.Gen.Kernel
import proofs.«157879_g72318659330489_cont_9to1c4b_23_24_alg».proof.Proof.Gen.Kernel.Skeleton
import proofs.«157879_g72318659330489_cont_9to1c4b_23_24_alg».proof.Proof.Gen.Kernel.Launch
import proofs.«157879_g72318659330489_cont_9to1c4b_23_24_alg».proof.Proof.Gen.Kernel.Points
import proofs.«157879_g72318659330489_cont_9to1c4b_23_24_alg».proof.Proof.Gen.Kernel.Frame
import proofs.«157879_g72318659330489_cont_9to1c4b_23_24_alg».proof.Proof.Gen.KernelIdeal
import proofs.«157879_g72318659330489_cont_9to1c4b_23_24_alg».proof.Proof.Gen.KernelIdeal.Skeleton
import proofs.«157879_g72318659330489_cont_9to1c4b_23_24_alg».proof.Proof.Gen.KernelIdeal.Launch
import proofs.«157879_g72318659330489_cont_9to1c4b_23_24_alg».proof.Proof.Gen.KernelIdeal.Points
import proofs.«157879_g72318659330489_cont_9to1c4b_23_24_alg».proof.Proof.Gen.KernelIdeal.Frame
import proofs.«157879_g72318659330489_cont_9to1c4b_23_24_alg».proof.Proof.Gen.ReferenceIdeal
import proofs.«157879_g72318659330489_cont_9to1c4b_23_24_alg».proof.Proof.Gen.Pre_finite_inputs
import proofs.«157879_g72318659330489_cont_9to1c4b_23_24_alg».proof.Proof.Gen.KernelIdeal.Value
import proofs.«157879_g72318659330489_cont_9to1c4b_23_24_alg».proof.Proof.Gen.ReferenceIdeal.Run
import proofs.«157879_g72318659330489_cont_9to1c4b_23_24_alg».proof.Proof.Gen.ReferenceIdeal.Read
import proofs.«157879_g72318659330489_cont_9to1c4b_23_24_alg».proof.Proof.GcnLayer
import proofs.«157879_g72318659330489_cont_9to1c4b_23_24_alg».proof.Proof.KernelBlocks
import proofs.«157879_g72318659330489_cont_9to1c4b_23_24_alg».proof.Proof.RefLayer
import proofs.«157879_g72318659330489_cont_9to1c4b_23_24_alg».proof.Proof.PreDecode
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation: nothing to preserve. -/
theorem preserves : Cert.preserves_Kernel_KernelIdeal := trivial

/-- Over the extended reals, from memories that agree on the four arguments, the kernel's result array is the layer with
    the self loop folded in and the reference's is the layer through the normalized matrix; under the precondition the
    entries are real and the degrees positive, so the two are one array. -/
theorem algebraic : Cert.algebraic_KernelIdeal_ReferenceIdeal := by
  intro m ρ m' ρ' hpre hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq (F := Ideal) _ _ _ _).trans ?_
  rw [Cert.ReferenceIdeal.Layer.result_eq, (hagree c).1, (hagree c).2.1, (hagree c).2.2.1, (hagree c).2.2.2]
  obtain ⟨hX, hW, hb, hdeg⟩ := Cert.PreDecode.of_pre _ _ _ _ (hpre c)
  exact (Cert.Gcn.layerFolded_eq_layerNormalized _ _ _ _ hX hW hb hdeg).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
